-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x288x512 : Shape := ⟨4, ![64, 3, 288, 512]⟩
abbrev S_ : Shape := ⟨0, ![]⟩

class Facts : Prop where
  bcast_S_S64x3x288x512 : S_.BroadcastsInDim S64x3x288x512 (![] : Fin 0 → Fin S64x3x288x512.rank)
  reducesTo_S64x3x288x512_S_d0_1_2_3 : S64x3x288x512.ReducesTo [0, 1, 2, 3] S_
  h_S_ : 0 < S_.numel

variable [Facts]

def fn {F : FTy → Type} [FloatOps F] (main_arg0 : FVec F S64x3x288x512 .f32) (main_arg1 : IVec S64x3x288x512 32) : IVec S_ 1 :=
  let main_v0 : FVec F S64x3x288x512 .f32 := Host.absf main_arg0
  let main_cst : FVec F S_ .f32 := constant S_ .f32 0x7F800000#32
  let main_v1 : FVec F S64x3x288x512 .f32 := broadcastInDim S64x3x288x512 ![] bcast_S_S64x3x288x512 main_cst
  let main_v2 : IVec S64x3x288x512 1 := cmpf .olt main_v0 main_v1
  let main_c : IVec S_ 1 := constantI S_ 1 1#1
  let main_v3 : IVec S_ 1 := (fun x v => Host.reduce IntOp.andi x v reducesTo_S64x3x288x512_S_d0_1_2_3 h_S_) main_v2 main_c
  main_v3
-- ==== Kernel.lean ====
abbrev S64x3x288x512 : Shape := ⟨4, ![64, 3, 288, 512]⟩
abbrev S55296x512 : Shape := ⟨2, ![55296, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S64x3x288x512, .f32⟩
  | .hbm, ⟨1, _⟩ => ⟨S64x3x288x512, .i32⟩
  | .hbm, ⟨2, _⟩ => ⟨S55296x512, .f32⟩
  | .hbm, ⟨3, _⟩ => ⟨S55296x512, .i32⟩
  | .hbm, ⟨4, _⟩ => ⟨S1x1, .f32⟩
  | .hbm, ⟨5, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1x1, .f32⟩
  | _, _ => ⟨S64x3x288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x3x288x512_S55296x512 : S64x3x288x512.ShapeCasts S55296x512
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S55296x512.size a
  hwx0_0 : ∀ i : grid0.Coords, EltTy.bits .f32 = 32 ∨ (Rect.block (s := S55296x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S55296x512.size a
  hwx0_1 : ∀ i : grid0.Coords, EltTy.bits .i32 = 32 ∨ (Rect.block (s := S55296x512) S1024x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x288x512 : Shape := ⟨4, ![64, 3, 288, 512]⟩
abbrev S28311552 : Shape := ⟨1, ![28311552]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S64x3x288x512, .f32⟩
  | .hbm, ⟨1, _⟩ => ⟨S64x3x288x512, .i32⟩
  | .hbm, ⟨2, _⟩ => ⟨S28311552, .f32⟩
  | .hbm, ⟨3, _⟩ => ⟨S28311552, .i32⟩
  | .hbm, ⟨4, _⟩ => ⟨S_, .i32⟩
  | .hbm, ⟨5, _⟩ => ⟨S28311552, .i32⟩
  | .hbm, ⟨6, _⟩ => ⟨S28311552, .i1⟩
  | .hbm, ⟨7, _⟩ => ⟨S_, .f32⟩
  | .hbm, ⟨8, _⟩ => ⟨S28311552, .f32⟩
  | .hbm, ⟨9, _⟩ => ⟨S28311552, .f32⟩
  | .hbm, ⟨10, _⟩ => ⟨S28311552, .f32⟩
  | .hbm, ⟨11, _⟩ => ⟨S28311552, .f32⟩
  | .hbm, ⟨12, _⟩ => ⟨S28311552, .f32⟩
  | .hbm, ⟨13, _⟩ => ⟨S28311552, .f32⟩
  | .hbm, ⟨14, _⟩ => ⟨S_, .f32⟩
  | .hbm, ⟨15, _⟩ => ⟨S28311552, .f32⟩
  | .hbm, ⟨16, _⟩ => ⟨S28311552, .i1⟩
  | .hbm, ⟨17, _⟩ => ⟨S_, .f32⟩
  | .hbm, ⟨18, _⟩ => ⟨S_, .f32⟩
  | .hbm, ⟨19, _⟩ => ⟨S28311552, .f32⟩
  | .hbm, ⟨20, _⟩ => ⟨S28311552, .f32⟩
  | .hbm, ⟨21, _⟩ => ⟨S_, .f32⟩
  | .hbm, ⟨22, _⟩ => ⟨S28311552, .f32⟩
  | .hbm, ⟨23, _⟩ => ⟨S28311552, .f32⟩
  | .hbm, ⟨24, _⟩ => ⟨S28311552, .f32⟩
  | .hbm, ⟨25, _⟩ => ⟨S28311552, .f32⟩
  | .hbm, ⟨26, _⟩ => ⟨S_, .f32⟩
  | .hbm, ⟨27, _⟩ => ⟨S28311552, .f32⟩
  | .hbm, ⟨28, _⟩ => ⟨S28311552, .f32⟩
  | .hbm, ⟨29, _⟩ => ⟨S28311552, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S64x3x288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v9 : Ref sig .tc := ⟨.hbm, 16, rfl⟩
abbrev main_cst_0 : Ref sig .tc := ⟨.hbm, 17, rfl⟩
abbrev main_call2_v0 : Ref sig .tc := ⟨.hbm, 18, rfl⟩
abbrev main_call2_v1 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  shapeCasts_S64x3x288x512_S28311552 : S64x3x288x512.ShapeCasts S28311552
  bcast_S_S28311552 : S_.BroadcastsInDim S28311552 (![] : Fin 0 → Fin S28311552.rank)
  reducesTo_S28311552_S_d0 : S28311552.ReducesTo [0] S_
  h_S_ : 0 < S_.numel

variable [Facts₀]

class Facts : Prop extends Facts₀ where

variable [Facts]
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.FocalSpec.lean ====
/-
  The averaged focal loss: what both programs compute, as one function of the two argument arrays.

  For a probability entry `p` and a label word `y` the per-entry term is built from
      pt = p where y = 1, and 1 − p elsewhere;
      ℓ  = −log pt, replaced by the f32 word of 1e-7 where |ℓ| = +∞;
      term = (1 − pt)² · ℓ, multiplied by the f32 word of 0.7 where y = 1,
  every operation the exact one on the extended reals (`term`). The result is the sum of the terms over all
  64 · 3 · 288 · 512 = 28311552 entries divided by the f32 word of 28311552 (`meanLoss`).

  The entries are counted by their row-major position `k < 28311552` in the [64, 3, 288, 512] arrays (`unflat k` is the
  entry at that position). One program adds the terms up in one sum over the positions; the other walks the positions in
  54 consecutive blocks of 1024 · 512 = 524288, inside a block row by row (1024 rows of 512), keeping a running total.
  Addition of extended reals is commutative and associative, so the running total after the last block is the one
  sum (`running_last`); nothing finite is asked of the terms.
-/
import Idealize.ShloMosaic.PureOps.Ideal
import Idealize.ShloMosaic.PureOps.Ideal.Laws
import Idealize.ShloMosaic.Lib.ValueIdx
import proofs.«167528_j68831145886018_1_alg».proof.Proof.LibBlockSum

noncomputable section

namespace Cert.Focal

open Idealize.ShloMosaic
open scoped BigOperators

/-- The shape of both argument arrays. -/
abbrev SArg : Shape := ⟨4, ![64, 3, 288, 512]⟩

/-- The per-entry focal term of a probability `p` and a label word `y`, on the extended reals. -/
def term (p : EReal) (y : BitVec 32) : EReal :=
  let pt : EReal := Scalar.select (IntOp.cmpi .eq y 1#32) p (Ideal.ofBits .f32 0x3F800000#32 - p)
  let nl : EReal := -(Ideal.log pt)
  let l : EReal := Scalar.select (Ideal.cmp .oeq (max nl (-nl)) (Ideal.ofBits .f32 0x7F800000#32))
    (Ideal.ofBits .f32 0x33D6BF95#32) nl
  let f : EReal := (Ideal.ofBits .f32 0x3F800000#32 - pt) * (Ideal.ofBits .f32 0x3F800000#32 - pt) * l
  Scalar.select (IntOp.cmpi .eq y 1#32) (f * Ideal.ofBits .f32 0x3F333333#32) f

/-- The entry at row-major position `k` of a [64, 3, 288, 512] array: 442368 = 3·288·512, 147456 = 288·512. -/
abbrev unflat (k : Fin 28311552) : SArg.Idx := fun a => match a with
  | ⟨0, _⟩ => ⟨k.val / 442368, by have h0 : k.val < 28311552 := k.isLt; show k.val / 442368 < 64; omega⟩
  | ⟨1, _⟩ => ⟨k.val / 147456 % 3, by show k.val / 147456 % 3 < 3; omega⟩
  | ⟨2, _⟩ => ⟨k.val / 512 % 288, by show k.val / 512 % 288 < 288; omega⟩
  | ⟨3, _⟩ => ⟨k.val % 512, by show k.val % 512 < 512; omega⟩

/-- Its row-major position is `k`. -/
theorem rowMajor_unflat (k : Fin 28311552) : (SArg.rowMajor (unflat k)).val = k.val := by
  rw [Shape.rowMajor_val_four]
  have h0 : k.val < 28311552 := k.isLt
  show ((k.val / 442368 * 3 + k.val / 147456 % 3) * 288 + k.val / 512 % 288) * 512 + k.val % 512 = k.val
  omega

/-- The term of the entry at position `k`. -/
def flatTerm (x0 : SArg.Idx → EReal) (x1 : SArg.Idx → BitVec 32) (k : Fin 28311552) : EReal :=
  term (x0 (unflat k)) (x1 (unflat k))

/-- The averaged focal loss of the two arrays. -/
def meanLoss (x0 : SArg.Idx → EReal) (x1 : SArg.Idx → BitVec 32) : EReal :=
  Ideal.div (∑ k : Fin 28311552, flatTerm x0 x1 k) (Ideal.ofBits .f32 0x4BD80000#32)

/-! ## A rank-1 index set is its one coordinate's range -/

/-- A rank-1 index is its coordinate. -/
def idxEquiv1 {n : Nat} : (⟨1, ![n]⟩ : Shape).Idx ≃ Fin n where
  toFun i := i 0
  invFun := ValueIdx.ix1
  left_inv i := (ValueIdx.eq_ix1 i).symm
  right_inv _ := rfl

/-- So a sum over the rank-1 indices of a function of the coordinate is the sum over the coordinate. -/
theorem sum_idx1 {M : Type*} [AddCommMonoid M] {n : Nat} (g : Fin n → M) :
    ∑ j : (⟨1, ![n]⟩ : Shape).Idx, g (j 0) = ∑ k : Fin n, g k :=
  Equiv.sum_comp (idxEquiv1 (n := n)) g

/-! ## The positions block by block -/

variable (x0 : SArg.Idx → EReal) (x1 : SArg.Idx → BitVec 32)

/-- 54 blocks of 524288 positions. -/
theorem blocks_all : 54 * 524288 = 28311552 := by norm_num
/-- A block is 1024 rows of 512 positions. -/
theorem rows_block : 1024 * 512 = 524288 := by norm_num

/-- Position `l` of row `r` of block `t` is a position. -/
theorem pos_lt {t r l : ℕ} (ht : t < 54) (hr : r < 1024) (hl : l < 512) : 524288 * t + (512 * r + l) < 28311552 := by
  omega

/-- The sum of the terms of block `t`, row by row. -/
def blockTotal (t : ℕ) (ht : t < 54) : EReal :=
  ∑ r : Fin 1024, ∑ l : Fin 512, flatTerm x0 x1 ⟨524288 * t + (512 * r.val + l.val), pos_lt ht r.isLt l.isLt⟩

/-- A block's sum over its 524288 positions is its sum row by row. -/
theorem blockSum_eq_blockTotal (t : ℕ) (ht : t < 54) :
    LibBlockSum.blockSum blocks_all (flatTerm x0 x1) ⟨t, ht⟩ = blockTotal x0 x1 t ht :=
  LibBlockSum.sum_blocks' rows_block
    (fun q : Fin 524288 => flatTerm x0 x1 ⟨524288 * t + q.val, LibBlockSum.block_lt blocks_all ht q.isLt⟩)

/-- The running total after `n` blocks. -/
def running (n : ℕ) : EReal := LibBlockSum.blockAcc blocks_all (flatTerm x0 x1) n

/-- It starts at zero. -/
theorem running_zero : running x0 x1 0 = 0 := rfl

/-- Block `t` adds its row-by-row sum. -/
theorem running_succ {t : ℕ} (ht : t < 54) : running x0 x1 (t + 1) = running x0 x1 t + blockTotal x0 x1 t ht := by
  unfold running
  rw [LibBlockSum.blockAcc_succ blocks_all _ ht, blockSum_eq_blockTotal]

/-- After the 54th block it is the sum over all positions. -/
theorem running_last : running x0 x1 54 = ∑ k : Fin 28311552, flatTerm x0 x1 k :=
  LibBlockSum.blockAcc_last blocks_all _

end Cert.Focal

end
-- ==== Proof.CaseValues.lean ====
/-
  What one run of the kernel body leaves in the [1, 1] accumulator, in each of its three control cases.

  The body first zeroes the accumulator when the grid coordinate is 0, then adds the block's sum to it, then divides it
  by the entry count when the grid coordinate is 53. Writing `upd x p y` for "x plus the sum over the [1024, 512] block
  (p, y) of the per-entry term" (the body's second store, as a function of what it loads), `zero` for the zero splat (its
  first store) and `fin x` for the division (its last store):

    at the first point  (reset, no division)   the accumulator ends at  upd zero p y   — whatever it held before;
    at a middle point   (neither)              it ends at               upd x p y      — over the x it held;
    at the last point   (division, no reset)   it ends at               fin (upd x p y).

  Each store writes the whole accumulator, so what is left is the last store's value; a load of the accumulator after
  a store in the same run reads that store's value.
-/
import proofs.«167528_j68831145886018_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.FocalValue

open Cert.KernelIdeal Cert.KernelIdeal.Gen

variable {F : FTy → Type} [FloatOps F]

/-- The zero offsets of a rank-2 rectangle. -/
theorem hz : (![0, 0] : Fin 2 → Nat) = fun _ => 0 := funext fun a => by fin_cases a <;> rfl

/-- A MIDDLE point: the one store leaves the update of what the accumulator held. -/
theorem out_B (c : Dev nD) (i : grid0.Coords) (a1 : Memref sig .tc .vmem S1024x512 .f32) (h1 : a1.IsWhole)
    (a2 : Memref sig .tc .vmem S1024x512 .i32) (h2 : a2.IsWhole) (a3 : Memref sig .tc .vmem S1x1 .f32) (h3 : a3.IsWhole) (hc0 : ¬cond0_0 i) (hc1 : ¬cond0_1 i)
    (x0 : Vec F S1024x512 .f32) (x1 : Vec F S1024x512 .i32) (xo : Vec F S1x1 .f32) :
    out0_B_2 c i a1 h1 a2 h2 a3 h3 hc0 hc1 x0 x1 xo = k0_pay3 x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz]
  simp only [View.readAt_eq_ld, h1.read_unread, h2.read_unread, h3.read_unread, View.ld_unit_zero (S := S1024x512) hz,
    View.ld_unit_zero (S := S1x1) hz]

/-- The FIRST point: the reset is read back by the update, which is what is left. -/
theorem out_A (c : Dev nD) (i : grid0.Coords) (a1 : Memref sig .tc .vmem S1024x512 .f32) (h1 : a1.IsWhole)
    (a2 : Memref sig .tc .vmem S1024x512 .i32) (h2 : a2.IsWhole) (a3 : Memref sig .tc .vmem S1x1 .f32) (h3 : a3.IsWhole) (hc0 : cond0_0 i) (hc1 : ¬cond0_1 i)
    (x0 : Vec F S1024x512 .f32) (x1 : Vec F S1024x512 .i32) :
    out0_A_2 c i a1 h1 a2 h2 a3 h3 hc0 hc1 x0 x1 = k0_pay3 x0 x1 (k0_pay2 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x512) hz]

/-- The LAST point: the update is read back by the division, which is what is left. -/
theorem out_C (c : Dev nD) (i : grid0.Coords) (a1 : Memref sig .tc .vmem S1024x512 .f32) (h1 : a1.IsWhole)
    (a2 : Memref sig .tc .vmem S1024x512 .i32) (h2 : a2.IsWhole) (a3 : Memref sig .tc .vmem S1x1 .f32) (h3 : a3.IsWhole) (hc0 : ¬cond0_0 i) (hc1 : cond0_1 i)
    (x0 : Vec F S1024x512 .f32) (x1 : Vec F S1024x512 .i32) (xo : Vec F S1x1 .f32) :
    out0_C_2 c i a1 h1 a2 h2 a3 h3 hc0 hc1 x0 x1 xo = k0_pay1 (k0_pay3 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S1024x512) hz,
    View.ld_unit_zero (S := S1x1) hz]

end Cert.KernelIdeal.FocalValue

end
-- ==== Proof.PayloadValue.lean ====
/-
  The kernel body's three stored values, read at an index, on the extended reals.

  The accumulator is a [1, 1] array. Over a [1024, 512] block `p` of probabilities and `y` of label words:
    • the update stores  x + Σ_r Σ_l term (p r l) (y r l)  — the per-entry terms summed along the 512 lanes of each row
      (from 0), the 1024 row sums laid out as a column and summed down it (from 0), that one number added to what the
      accumulator held; the body's negated logarithm is spelt `0 − log`, which is `−log`;
    • the reset stores 0;
    • the last store is the accumulator divided by the f32 word of 28311552.
-/
import proofs.«167528_j68831145886018_1_alg».proof.Proof.Gen.KernelIdeal.Skeleton
import proofs.«167528_j68831145886018_1_alg».proof.Proof.FocalSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx
open scoped BigOperators

namespace Cert.KernelIdeal.FocalValue

open Cert.KernelIdeal Cert.KernelIdeal.Gen

/-- The sum along the 512 lanes of row `r` of a [1024, 512] block. -/
theorem laneSum_apply (v : FVec Ideal S1024x512 .f32) (h : S1024x512.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ l : Fin 512, v (ix2 r l) := by
  refine (Ideal.multiReduction_add_single v _ h hφ hacc (ix1 r)).trans ?_
  refine Finset.sum_congr rfl fun l _ => congrArg v ?_
  funext a
  match a with
  | ⟨0, _⟩ => exact Fin.ext rfl
  | ⟨1, _⟩ => exact Fin.ext rfl

/-- The sum down the 1024 rows of a [1024, 1] column. -/
theorem colSum_apply (w : FVec Ideal S1024x1 .f32) (h : S1024x1.Reduces [0] S1) (hφ : FKind.Formats .f32)
    (hacc : (0x00000000#32 : BitVec 32) = FKind.add.neutral .f32 hφ) (q : Fin 1) :
    multiReduction .add [0] S1 w 0x00000000#32 h hφ hacc (ix1 q) = ∑ r : Fin 1024, w (ix2 r q) := by
  refine (Ideal.multiReduction_add_single w _ h hφ hacc (ix1 q)).trans ?_
  refine Finset.sum_congr rfl fun r _ => congrArg w ?_
  funext a
  match a with
  | ⟨0, _⟩ => exact Fin.ext rfl
  | ⟨1, _⟩ => exact Fin.ext rfl

/-- A length-1024 vector as a [1024, 1] column: entry (r, 0) is entry r. -/
theorem column_apply {α : Type} (v : S1024.Idx → α) (h : S1024.ShapeCasts S1024x1) (r : Fin 1024) (q : Fin 1) :
    shapeCast S1024x1 v h (ix2 r q) = v (ix1 r) := by
  refine shapeCast_apply v h (ix2 r q) (ix1 r) ?_
  rw [Shape.rowMajor_val_one, Shape.rowMajor_val_two]
  have hq : q.val < 1 := q.isLt
  show r.val = r.val * 1 + q.val
  omega

/-- A length-1 vector as a [1, 1] array: its one entry. -/
theorem single_apply {α : Type} (v : S1.Idx → α) (h : S1.ShapeCasts S1x1) (j : S1x1.Idx) :
    shapeCast S1x1 v h j = v (ix1 0) := by
  refine shapeCast_apply v h j (ix1 0) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-- THE UPDATE at the accumulator's index: what it held plus the block's sum of the per-entry terms. -/
theorem upd_apply (x0 : FVec Ideal S1024x512 .f32) (x1 : IVec S1024x512 32) (acc : FVec Ideal S1x1 .f32) (j : S1x1.Idx) :
    k0_pay3 (F := Ideal) x0 x1 acc j
      = acc j + ∑ r : Fin 1024, ∑ l : Fin 512, Cert.Focal.term (x0 (ix2 r l)) (x1 (ix2 r l)) := by
  unfold k0_pay3
  refine (ValueIdx.addf_apply _ _ j).trans ?_
  refine congrArg₂ (· + ·) ?_ ?_
  · exact congrFun (shapeCast_self acc _) j
  · refine (single_apply _ _ j).trans ?_
    refine (colSum_apply _ _ _ _ 0).trans ?_
    refine Finset.sum_congr rfl fun r _ => ?_
    refine (column_apply _ _ r 0).trans ?_
    refine (laneSum_apply _ _ _ _ r).trans ?_
    refine Finset.sum_congr rfl fun l _ => ?_
    simp only [shapeCast_self]
    unfold Cert.Focal.term
    simp only [select, cmpi, mulf, subf, absf, log, cmpf, broadcast, Ideal.subf_def, Ideal.mulf_def, Ideal.log_def,
      Ideal.absf_def, Ideal.cmpf_def, Ideal.ofBits_def, Ideal.ofBits_zero_f32, zero_sub]

/-- THE RESET stores zero. -/
theorem reset_apply (j : S1x1.Idx) : k0_pay2 (F := Ideal) j = 0 := by
  unfold k0_pay2
  exact Ideal.ofBits_zero_f32

/-- THE LAST STORE divides the accumulator by the f32 word of the entry count. -/
theorem fin_apply (v : FVec Ideal S1x1 .f32) (j : S1x1.Idx) :
    k0_pay1 (F := Ideal) v j = Ideal.div (v j) (Ideal.ofBits .f32 0x4BD80000#32) := by
  unfold k0_pay1
  refine (ValueIdx.divf_apply _ _ j).trans ?_
  rw [shapeCast_self]
  rfl

end Cert.KernelIdeal.FocalValue

end
-- ==== Proof.BlockReads.lean ====
/-
  What the kernel's two input windows hold at a grid point, as entries of the argument arrays.

  Before the region @main reshapes each [64, 3, 288, 512] argument to [55296, 512], which keeps every entry at its
  row-major position. At grid point `t` each window holds rows 1024·t … 1024·t + 1023 of that array, all 512 lanes. So
  entry (r, l) of a block is the argument's entry at position (1024·t + r)·512 + l = 524288·t + 512·r + l.
-/
import proofs.«167528_j68831145886018_1_alg».proof.Proof.Gen.KernelIdeal.Frame
import proofs.«167528_j68831145886018_1_alg».proof.Proof.FocalSpec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.FocalValue

open Cert.KernelIdeal Cert.KernelIdeal.Gen

variable {F : FTy → Type} [FloatOps F]
variable (m : (ℓ : Loc nD τ sig) → Buf (Elt F) ℓ)

/-- Where the probabilities' window sits at point `t`: block row `t`, block column 0. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Where the labels' window sits at point `t`: the same. -/
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The region finds the [55296, 512] array of probabilities at the reshaped argument. -/
theorem V_main_v0 (c : Dev nD) :
    (V m c main_v0 : S55296x512.Idx → F .f32)
      = shapeCast S55296x512 (m ((c : Thread nD τ).loc main_arg0)) shapeCasts_S64x3x288x512_S55296x512 := by
  show StableHlo.after hostOps0 (fun b => m (c, b)) (Proc.devRef .tc main_v0) = _
  after_results
  rfl

/-- The region finds the [55296, 512] array of labels at the reshaped argument. -/
theorem V_main_v1 (c : Dev nD) :
    (V m c main_v1 : S55296x512.Idx → BitVec 32)
      = shapeCast S55296x512 (m ((c : Thread nD τ).loc main_arg1)) shapeCasts_S64x3x288x512_S55296x512 := by
  show StableHlo.after hostOps0 (fun b => m (c, b)) (Proc.devRef .tc main_v1) = _
  after_results
  rfl

/-- Entry (r, l) of the probabilities' block at point `t` is the argument's entry at row-major position
    524288·t + 512·r + l: row 1024·t + r, lane l of the [55296, 512] reshape. -/
theorem pblk_apply (c : Dev nD) (t : Fin cfg0.N) (r : Fin 1024) (l : Fin 512)
    (hk : 524288 * t.val + (512 * r.val + l.val) < 28311552) :
    (iblk m c 0 t : Vec F S1024x512 .f32) (ix2 r l)
      = m ((c : Thread nD τ).loc main_arg0) (Cert.Focal.unflat ⟨524288 * t.val + (512 * r.val + l.val), hk⟩) := by
  have hi := idx_facts0 t
  unfold iblk
  rw [View.read_apply]
  show V m c main_v0 _ = _
  rw [V_main_v0]
  refine shapeCast_apply _ _ _ _ ?_
  refine (Cert.Focal.rowMajor_unflat ⟨_, hk⟩).trans ?_
  rw [Shape.rowMajor_val_two]
  show 524288 * t.val + (512 * r.val + l.val)
    = (win0_0.index t 0 * 1024 + 1 * r.val) * 512 + (win0_0.index t 1 * 512 + 1 * l.val)
  rw [hi.1, hi.2]
  omega

/-- Entry (r, l) of the labels' block at point `t`, likewise. -/
theorem yblk_apply (c : Dev nD) (t : Fin cfg0.N) (r : Fin 1024) (l : Fin 512)
    (hk : 524288 * t.val + (512 * r.val + l.val) < 28311552) :
    (iblk m c 1 t : Vec F S1024x512 .i32) (ix2 r l)
      = m ((c : Thread nD τ).loc main_arg1) (Cert.Focal.unflat ⟨524288 * t.val + (512 * r.val + l.val), hk⟩) := by
  have hi := idx_facts1 t
  unfold iblk
  rw [View.read_apply]
  show V m c main_v1 _ = _
  rw [V_main_v1]
  refine shapeCast_apply _ _ _ _ ?_
  refine (Cert.Focal.rowMajor_unflat ⟨_, hk⟩).trans ?_
  rw [Shape.rowMajor_val_two]
  show 524288 * t.val + (512 * r.val + l.val)
    = (win0_1.index t 0 * 1024 + 1 * r.val) * 512 + (win0_1.index t 1 * 512 + 1 * l.val)
  rw [hi.1, hi.2]
  omega

end Cert.KernelIdeal.FocalValue

end
-- ==== Proof.KernelMean.lean ====
/-
  The kernel computes the averaged focal loss.

  The grid has 54 points; at point `t` the body sees rows 1024·t … 1024·t + 1023 of the two [55296, 512] arrays and a
  [1, 1] accumulator that stays in place from point to point and is written back once, after point 53.
    • Point 0 resets the accumulator and adds block 0's sum: it holds the running total of one block.
    • Points 1 … 52 add their block's sum: after point `n` it holds the running total of the first n + 1 blocks
      (induction on the point; a block's sum of per-entry terms is the sum of the terms of its 524288 positions).
    • Point 53 adds the last block's sum — the running total of all 54 blocks, which is the sum over all 28311552
      positions — and divides by the f32 word of 28311552: the averaged focal loss.
  The one write-back puts that number in the [1, 1] result array, whose single block is the whole array, and the reshape
  after the region carries it to the scalar result.
-/
import proofs.«167528_j68831145886018_1_alg».proof.Proof.Gen.KernelIdeal.Frame
import proofs.«167528_j68831145886018_1_alg».proof.Proof.FocalSpec
import proofs.«167528_j68831145886018_1_alg».proof.Proof.CaseValues
import proofs.«167528_j68831145886018_1_alg».proof.Proof.PayloadValue
import proofs.«167528_j68831145886018_1_alg».proof.Proof.BlockReads
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.FocalValue

open Cert.KernelIdeal Cert.KernelIdeal.Gen

variable (m : (ℓ : Loc nD τ sig) → Buf (Elt Ideal) ℓ) (ρ : Dev nD → PrngReg)

/-- The probabilities and the labels as launched, on core `c`. -/
abbrev X0 (c : Dev nD) : Cert.Focal.SArg.Idx → EReal := m ((c : Thread nD τ).loc main_arg0)
abbrev X1 (c : Dev nD) : Cert.Focal.SArg.Idx → BitVec 32 := m ((c : Thread nD τ).loc main_arg1)

/-- The sum of the per-entry terms over the blocks at point `t` is block `t`'s sum of the positions' terms. -/
theorem blk_total (c : Dev nD) (t : Fin cfg0.N) (ht : t.val < 54) :
    (∑ r : Fin 1024, ∑ l : Fin 512, Cert.Focal.term ((iblk m c 0 t : Vec Ideal S1024x512 .f32) (ix2 r l))
        ((iblk m c 1 t : Vec Ideal S1024x512 .i32) (ix2 r l)))
      = Cert.Focal.blockTotal (X0 m c) (X1 m c) t.val ht := by
  unfold Cert.Focal.blockTotal Cert.Focal.flatTerm
  refine Finset.sum_congr rfl fun r _ => Finset.sum_congr rfl fun l _ => ?_
  rw [pblk_apply m c t r l (Cert.Focal.pos_lt ht r.isLt l.isLt), yblk_apply m c t r l (Cert.Focal.pos_lt ht r.isLt l.isLt)]

/-- Through point 52 the accumulator holds the running total of the blocks so far. -/
theorem outsAt_running (c : Dev nD) : ∀ (n : ℕ) (h : n < cfg0.N), n < 53 →
    outsAt0 m c n h = fun _ => Cert.Focal.running (X0 m c) (X1 m c) (n + 1)
  | 0, h, _ => by
    rw [outsAt0_A m c ⟨0, h⟩ rfl (by dsimp only; omega), out_A]
    funext j
    rw [upd_apply, reset_apply, blk_total m c ⟨0, h⟩ (by dsimp only; omega), Cert.Focal.running_succ _ _ (by decide),
      Cert.Focal.running_zero]
  | n + 1, h, hn => by
    have hN : cfg0.N = 54 := N_0
    have hB0 : ¬(⟨n + 1, h⟩ : Fin cfg0.N).val % 54 = 0 := by dsimp only; omega
    have hB1 : ¬(⟨n + 1, h⟩ : Fin cfg0.N).val % 54 = 53 := by dsimp only; omega
    have ih := outsAt_running c n (Nat.lt_of_succ_lt h) (by omega)
    rw [outsAt0_B m c ⟨n + 1, h⟩ hB0 hB1, out_B]
    funext j
    rw [upd_apply, blk_total m c ⟨n + 1, h⟩ (by dsimp only; omega)]
    show outsAt0 m c n _ j + _ = _
    rw [ih, ← Cert.Focal.running_succ]

/-- The last grid point. -/
abbrev tLast : Fin cfg0.N := ⟨53, by rw [show cfg0.N = 54 from N_0]; decide⟩

/-- After point 53 the accumulator holds the averaged focal loss. -/
theorem outsAt_last (c : Dev nD) :
    outsAt0 m c tLast.val tLast.isLt = fun _ => Cert.Focal.meanLoss (X0 m c) (X1 m c) := by
  have hC0 : ¬(tLast : Fin cfg0.N).val % 54 = 0 := by decide
  have hC1 : (tLast : Fin cfg0.N).val % 54 = 53 := rfl
  have ih := outsAt_running m c 52 (by rw [show cfg0.N = 54 from N_0]; decide) (by decide)
  rw [outsAt0_C m c tLast hC0 hC1, out_C]
  funext j
  rw [fin_apply, upd_apply, blk_total m c tLast (by decide)]
  show Ideal.div (outsAt0 m c 52 _ j + _) _ = _
  rw [ih, ← Cert.Focal.running_succ, Cert.Focal.running_last]
  rfl

/-- What the [1, 1] result array of the region ends holding. -/
abbrev regionResult (c : Dev nD) : Buf (Elt Ideal) ((c : Thread nD τ).loc main_v2) :=
  fun _ => Cert.Focal.meanLoss (X0 m c) (X1 m c)

/-- The one write-back, after point 53, writes the accumulator: the averaged focal loss at its one entry. -/
theorem flushed_eq (c : Dev nD) (t : Fin cfg0.N) (hf : (cfg0.win 2).flush t = true) :
    (dats m 0 c).flushed 2 t = ((cfg0.win 2).blk t).view.read (Elt Ideal) (regionResult m c) := by
  have hN : cfg0.N = 54 := N_0
  have h53 : t.val = 53 := by have := (flush0_2 t).mp hf; have := t.isLt; omega
  obtain rfl : t = tLast := Fin.ext h53
  show (cfg0.win 2).cut (grid0.coords tLast) ((dats m 0 c).after 2 tLast) = _
  rw [after0_2, outsAt_last]
  funext y
  rw [View.read_apply]
  rfl

/-- That write-back covers the [1, 1] array, so the array ends holding the averaged focal loss. -/
theorem final_o (c : Dev nD) : (dats m 0 c).arrAt 2 cfg0.N = regionResult m c :=
  (dats m 0 c).arrAt_eq_of_cover 2 (regionResult m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- After the region @main reshapes the [1, 1] array to a scalar: the same one entry. -/
theorem tail_result (c : Dev nD) :
    Pipeline.afterTail₀ cfgs (dats m) 0 (V0 m) [hostOps1] c main_v3
      = fun _ => Cert.Focal.meanLoss (X0 m c) (X1 m c) := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = regionResult m c :=
    (Pipeline.withArrays_arr spec0 launch0.win.arr_inj c _ _ 2).trans (final_o m c)
  funext i
  rw [e]
  rfl

/-- THE KERNEL'S RUN, READ: every weakly fair execution of @main terminates with the scalar result at the averaged focal
    loss of the arguments as launched, and the arguments unchanged. -/
theorem run : θ_run defs (onTc (τ := τ) (main (F := Ideal))) ⟨m, fun _ => 0, ρ⟩ fun r => ∀ c : Dev nD,
      r.2.mem ((c.tc : Thread nD τ).loc main_v3) = (fun _ => Cert.Focal.meanLoss (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.FocalValue

end
-- ==== Proof.RefMean.lean ====
/-
  The reference computes the averaged focal loss.

  Its @main flattens both arguments to length 28311552 (entry `i` of the flat array is the argument's entry at row-major
  position `i`), forms the per-entry term pointwise — the same selects, the logarithm negated, the infinity test, the
  square and the two products, over the same f32 words —, sums the terms from 0 and divides by the f32 word of
  28311552. Read one operation at a time, the last pointwise value at `i` is `flatTerm` at position `i`, the sum over
  the flat indices is the sum over the positions, and `0 + s = s`.
-/
import proofs.«167528_j68831145886018_1_alg».proof.Proof.Gen.ReferenceIdeal.Read
import proofs.«167528_j68831145886018_1_alg».proof.Proof.FocalSpec
import Idealize.ShloMosaic.Lib.ValueIdx
import Idealize.ShloMosaic.PureOps.Ideal.Laws

noncomputable section

open Idealize.ShloMosaic Idealize.ShloMosaic.TcCoe Idealize.SL.Sem
open scoped BigOperators

namespace Cert.ReferenceIdeal.FocalValue

open Cert.ReferenceIdeal Cert.ReferenceIdeal.Gen Cert.ReferenceIdeal.Read

/-- The flat index `i` reads the probabilities at row-major position `i`. -/
theorem unflat_eq0 (i : S28311552.Idx) : idx_main_v0 i = Cert.Focal.unflat (i 0) := by
  funext a
  match a with
  | ⟨0, _⟩ => rfl
  | ⟨1, _⟩ => rfl
  | ⟨2, _⟩ => rfl
  | ⟨3, _⟩ => rfl

/-- The flat index `i` reads the labels at row-major position `i`. -/
theorem unflat_eq1 (i : S28311552.Idx) : idx_main_v1 i = Cert.Focal.unflat (i 0) := by
  funext a
  match a with
  | ⟨0, _⟩ => rfl
  | ⟨1, _⟩ => rfl
  | ⟨2, _⟩ => rfl
  | ⟨3, _⟩ => rfl

/-- The reference's last pointwise value at flat index `i` is the per-entry term at position `i`. -/
theorem ref_term (x0 : (⟨S64x3x288x512, .f32⟩ : BufTy).Contents (Elt Ideal))
    (x1 : (⟨S64x3x288x512, .i32⟩ : BufTy).Contents (Elt Ideal)) (i : S28311552.Idx) :
    val_main_v17 (F := Ideal) x0 x1 i = Cert.Focal.flatTerm x0 x1 (i 0) := by
  simp only [val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_c_apply, val_main_cst_apply, val_main_cst_0_apply, val_main_cst_1_apply,
    val_main_cst_2_apply, val_main_call1_v0_apply, val_main_call1_cst_apply, val_main_call1_v1_apply,
    val_main_call2_v0_apply, val_main_call2_v1_apply, unflat_eq0, unflat_eq1]
  unfold Cert.Focal.flatTerm Cert.Focal.term
  simp only [Ideal.subf_def, Ideal.mulf_def, Ideal.hostUnary_log_def, Ideal.hostNegf_def, Ideal.negf_def,
    Ideal.hostAbsf_def, Ideal.absf_def, Ideal.cmpf_def, Ideal.ofBits_def]

/-- The reference's result is the averaged focal loss of its arguments. -/
theorem ref_eq (x0 : (⟨S64x3x288x512, .f32⟩ : BufTy).Contents (Elt Ideal))
    (x1 : (⟨S64x3x288x512, .i32⟩ : BufTy).Contents (Elt Ideal)) (i : S_.Idx) :
    val_main_v19 (F := Ideal) x0 x1 i = Cert.Focal.meanLoss x0 x1 := by
  rw [val_main_v19_apply, val_main_v18_apply, val_main_cst_4_apply, val_main_cst_3_apply]
  simp only [ref_term]
  unfold Cert.Focal.meanLoss
  rw [Cert.Focal.sum_idx1 (n := 28311552) (Cert.Focal.flatTerm x0 x1)]
  simp only [Ideal.hostDivf_def, Ideal.ofBits_def, Ideal.ofBits_zero_f32, zero_add]

end Cert.ReferenceIdeal.FocalValue

end
-- ==== Proof.lean ====
/-
  The kernel and the reference compute the same averaged focal loss.

  Both programs take probabilities `p` f32[64, 3, 288, 512] and labels `y` i32[64, 3, 288, 512] and return one number: the
  mean over all 28311552 entries of the focal term (pt = p where y = 1 and 1 − p elsewhere; ℓ = −log pt, or 1e-7 where
  that is infinite; (1 − pt)²·ℓ, times 0.7 where y = 1). The reference flattens, forms the terms and takes one sum, then
  divides by the entry count. The kernel walks the rows in 54 blocks of 1024, sums each block's terms along the lanes and
  then down the rows, keeps a running total across the grid, and divides at the last point. On the extended reals
  addition is commutative and associative, so the blockwise running total is the one sum (Proof/FocalSpec.lean); every
  pointwise operation and every f32 word is the same on both sides, and the kernel's `0 − log` is the reference's
  negation. Nothing finite is asked of the inputs: the precondition is not opened.

    frame_Kernel, frame_KernelIdeal   the generated frames;
    frame_ReferenceIdeal              the generated run of the reference, its result dropped;
    preserves_Kernel_KernelIdeal      the idealization rewrote nothing;
    algebraic                         the kernel's run ends at the averaged focal loss of its arguments
                                      (Proof/KernelMean.lean), the reference's at the same function of arguments that
                                      agree (Proof/RefMean.lean).
-/
import proofs.«167528_j68831145886018_1_alg».proof.Defs
import proofs.«167528_j68831145886018_1_alg».proof.Proof.Gen.Kernel
import proofs.«167528_j68831145886018_1_alg».proof.Proof.Gen.Kernel.Skeleton
import proofs.«167528_j68831145886018_1_alg».proof.Proof.Gen.Kernel.Launch
import proofs.«167528_j68831145886018_1_alg».proof.Proof.Gen.Kernel.Points
import proofs.«167528_j68831145886018_1_alg».proof.Proof.Gen.Kernel.Frame
import proofs.«167528_j68831145886018_1_alg».proof.Proof.Gen.KernelIdeal
import proofs.«167528_j68831145886018_1_alg».proof.Proof.Gen.KernelIdeal.Skeleton
import proofs.«167528_j68831145886018_1_alg».proof.Proof.Gen.KernelIdeal.Launch
import proofs.«167528_j68831145886018_1_alg».proof.Proof.Gen.KernelIdeal.Points
import proofs.«167528_j68831145886018_1_alg».proof.Proof.Gen.KernelIdeal.Frame
import proofs.«167528_j68831145886018_1_alg».proof.Proof.Gen.ReferenceIdeal
import proofs.«167528_j68831145886018_1_alg».proof.Proof.Gen.ReferenceIdeal.Run
import proofs.«167528_j68831145886018_1_alg».proof.Proof.Gen.ReferenceIdeal.Read
import proofs.«167528_j68831145886018_1_alg».proof.Proof.Gen.Pre_finite_inputs
import proofs.«167528_j68831145886018_1_alg».proof.Proof.KernelMean
import proofs.«167528_j68831145886018_1_alg».proof.Proof.RefMean
import Idealize.ShloMosaic.Adequacy
import Idealize.ShloMosaic.Init

noncomputable section

namespace Cert.Proof.FocalClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals both programs end at the averaged focal loss of the kernel's arguments: the kernel by its
    blockwise running total, the reference by its one sum over the flattened arrays, which agree entry by entry. -/
theorem algebraic : Cert.algebraic_KernelIdeal_ReferenceIdeal := by
  intro m ρ m' ρ' _ hagree
  refine ⟨fun c => fun _ => Cert.Focal.meanLoss (Cert.KernelIdeal.FocalValue.X0 m c) (Cert.KernelIdeal.FocalValue.X1 m c),
    Cert.KernelIdeal.FocalValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  funext i
  exact Cert.ReferenceIdeal.FocalValue.ref_eq _ _ i

end Cert.Proof.FocalClaims

namespace Cert.Proof

theorem claim : Cert.Claim := ⟨Cert.Kernel.Gen.facts, Cert.KernelIdeal.Gen.facts, Cert.ReferenceIdeal.Gen.facts, Cert.Pre_finite_inputs.Gen.facts,
  FocalClaims.frame_k, FocalClaims.frame_ki, FocalClaims.frame_ri, FocalClaims.preserves, FocalClaims.algebraic⟩

end Cert.Proof

end
